-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x256 : Shape := ⟨3, ![16, 1024, 256]⟩
abbrev S16x1024x1024 : Shape := ⟨3, ![16, 1024, 1024]⟩
abbrev S256 : Shape := ⟨1, ![256]⟩
abbrev S256x256 : Shape := ⟨2, ![256, 256]⟩
abbrev S_ : Shape := ⟨0, ![]⟩

class Facts : Prop where
  bcast_S_S16x1024x256 : S_.BroadcastsInDim S16x1024x256 (![] : Fin 0 → Fin S16x1024x256.rank)
  reducesTo_S16x1024x256_S_d0_1_2 : S16x1024x256.ReducesTo [0, 1, 2] S_
  h_S_ : 0 < S_.numel
  bcast_S_S16x1024x1024 : S_.BroadcastsInDim S16x1024x1024 (![] : Fin 0 → Fin S16x1024x1024.rank)
  reducesTo_S16x1024x1024_S_d0_1_2 : S16x1024x1024.ReducesTo [0, 1, 2] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part4 {F : FTy → Type} [FloatOps F] (main_arg14 : FVec F S256x256 .f32) (main_arg15 : FVec F S256 .f32) (main_v63 : IVec S_ 1) (main_v67 : IVec S_ 1) : IVec S_ 1 :=
  let main_v68 : IVec S_ 1 := andi main_v63 main_v67
  let main_v69 : FVec F S256x256 .f32 := Host.absf main_arg14
  let main_cst_26 : FVec F S_ .f32 := constant S_ .f32 0x7F800000#32
  let main_v70 : FVec F S256x256 .f32 := broadcastInDim S256x256 ![] bcast_S_S256x256 main_cst_26
  let main_v71 : IVec S256x256 1 := cmpf .olt main_v69 main_v70
  let main_c_27 : IVec S_ 1 := constantI S_ 1 1#1
  let main_v72 : IVec S_ 1 := (fun x v => Host.reduce IntOp.andi x v reducesTo_S256x256_S_d0_1 h_S_) main_v71 main_c_27
  let main_v73 : IVec S_ 1 := andi main_v68 main_v72
  let main_v74 : FVec F S256 .f32 := Host.absf main_arg15
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  main_v78

def fn_part3 {F : FTy → Type} [FloatOps F] (main_arg11 : FVec F S256 .f32) (main_arg12 : FVec F S256x256 .f32) (main_arg13 : FVec F S256 .f32) (main_arg14 : FVec F S256x256 .f32) (main_arg15 : FVec F S256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x256 .f32 := Host.absf main_arg12
  let main_cst_22 : FVec F S_ .f32 := constant S_ .f32 0x7F800000#32
  let main_v60 : FVec F S256x256 .f32 := broadcastInDim S256x256 ![] bcast_S_S256x256 main_cst_22
  let main_v61 : IVec S256x256 1 := cmpf .olt main_v59 main_v60
  let main_c_23 : IVec S_ 1 := constantI S_ 1 1#1
  let main_v62 : IVec S_ 1 := (fun x v => Host.reduce IntOp.andi x v reducesTo_S256x256_S_d0_1 h_S_) main_v61 main_c_23
  let main_v63 : IVec S_ 1 := andi main_v58 main_v62
  let main_v64 : FVec F S256 .f32 := Host.absf main_arg13
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg14 main_arg15 main_v63 main_v67

def fn_part2 {F : FTy → Type} [FloatOps F] (main_arg7 : FVec F S256 .f32) (main_arg8 : FVec F S256 .f32) (main_arg9 : FVec F S256 .f32) (main_arg10 : FVec F S256 .f32) (main_arg11 : FVec F S256 .f32) (main_arg12 : FVec F S256x256 .f32) (main_arg13 : FVec F S256 .f32) (main_arg14 : FVec F S256x256 .f32) (main_arg15 : FVec F S256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_arg13 main_arg14 main_arg15 main_v48 main_v49 main_v50

def fn_part1 {F : FTy → Type} [FloatOps F] (main_arg4 : FVec F S256 .f32) (main_arg5 : FVec F S256 .f32) (main_arg6 : FVec F S256x256 .f32) (main_arg7 : FVec F S256 .f32) (main_arg8 : FVec F S256 .f32) (main_arg9 : FVec F S256 .f32) (main_arg10 : FVec F S256 .f32) (main_arg11 : FVec F S256 .f32) (main_arg12 : FVec F S256x256 .f32) (main_arg13 : FVec F S256 .f32) (main_arg14 : FVec F S256x256 .f32) (main_arg15 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S16x1024x256 .f32) (main_arg1 : FVec F S16x1024x1024 .f32) (main_arg2 : FVec F S256 .f32) (main_arg3 : FVec F S256 .f32) (main_arg4 : FVec F S256 .f32) (main_arg5 : FVec F S256 .f32) (main_arg6 : FVec F S256x256 .f32) (main_arg7 : FVec F S256 .f32) (main_arg8 : FVec F S256 .f32) (main_arg9 : FVec F S256 .f32) (main_arg10 : FVec F S256 .f32) (main_arg11 : FVec F S256 .f32) (main_arg12 : FVec F S256x256 .f32) (main_arg13 : FVec F S256 .f32) (main_arg14 : FVec F S256x256 .f32) (main_arg15 : FVec F S256 .f32) : IVec S_ 1 :=
  let main_v0 : FVec F S16x1024x256 .f32 := Host.absf main_arg0
  let main_cst : FVec F S_ .f32 := constant S_ .f32 0x7F800000#32
  let main_v1 : FVec F S16x1024x256 .f32 := broadcastInDim S16x1024x256 ![] bcast_S_S16x1024x256 main_cst
  let main_v2 : IVec S16x1024x256 1 := cmpf .olt main_v0 main_v1
  let main_c : IVec S_ 1 := constantI S_ 1 1#1
  let main_v3 : IVec S_ 1 := (fun x v => Host.reduce IntOp.andi x v reducesTo_S16x1024x256_S_d0_1_2 h_S_) main_v2 main_c
  let main_v4 : FVec F S16x1024x1024 .f32 := Host.absf main_arg1
  let main_cst_0 : FVec F S_ .f32 := constant S_ .f32 0x7F800000#32
  let main_v5 : FVec F S16x1024x1024 .f32 := broadcastInDim S16x1024x1024 ![] bcast_S_S16x1024x1024 main_cst_0
  let main_v6 : IVec S16x1024x1024 1 := cmpf .olt main_v4 main_v5
  let main_c_1 : IVec S_ 1 := constantI S_ 1 1#1
  let main_v7 : IVec S_ 1 := (fun x v => Host.reduce IntOp.andi x v reducesTo_S16x1024x1024_S_d0_1_2 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S16x1024x256 : Shape := ⟨3, ![16, 1024, 256]⟩
abbrev S16x1024x1024 : Shape := ⟨3, ![16, 1024, 1024]⟩
abbrev S256 : Shape := ⟨1, ![256]⟩
abbrev S256x256 : Shape := ⟨2, ![256, 256]⟩
abbrev S1x1024x256 : Shape := ⟨3, ![1, 1024, 256]⟩
abbrev S1x1024x1024 : Shape := ⟨3, ![1, 1024, 1024]⟩
abbrev S1024x256 : Shape := ⟨2, ![1024, 256]⟩
abbrev S1024x1024 : Shape := ⟨2, ![1024, 1024]⟩
abbrev S1x256 : Shape := ⟨2, ![1, 256]⟩

abbrev nBuf : Space → Nat
  | .hbm => 17
  | .vmem => 20
  | .smem => 0
  | _ => 0

abbrev bufTy : (tb : Table) → Fin (tcTables nBuf tb) → BufTy
  | .hbm, ⟨0, _⟩ => ⟨S16x1024x256, .f32⟩
  | .hbm, ⟨1, _⟩ => ⟨S16x1024x1024, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S256x256, .f32⟩
  | .hbm, ⟨13, _⟩ => ⟨S256, .f32⟩
  | .hbm, ⟨14, _⟩ => ⟨S256x256, .f32⟩
  | .hbm, ⟨15, _⟩ => ⟨S256, .f32⟩
  | .hbm, ⟨16, _⟩ => ⟨S16x1024x256, .f32⟩
  | .local _ .vmem, ⟨0, _⟩ => ⟨S1x1024x256, .f32⟩
  | .local _ .vmem, ⟨1, _⟩ => ⟨S1x1024x256, .f32⟩
  | .local _ .vmem, ⟨2, _⟩ => ⟨S1x1024x1024, .f32⟩
  | .local _ .vmem, ⟨3, _⟩ => ⟨S1x1024x1024, .f32⟩
  | .local _ .vmem, ⟨4, _⟩ => ⟨S256, .f32⟩
  | .local _ .vmem, ⟨5, _⟩ => ⟨S256, .f32⟩
  | .local _ .vmem, ⟨6, _⟩ => ⟨S256, .f32⟩
  | .local _ .vmem, ⟨7, _⟩ => ⟨S256, .f32⟩
  | .local _ .vmem, ⟨8, _⟩ => ⟨S256x256, .f32⟩
  | .local _ .vmem, ⟨9, _⟩ => ⟨S256, .f32⟩
  | .local _ .vmem, ⟨10, _⟩ => ⟨S256, .f32⟩
  | .local _ .vmem, ⟨11, _⟩ => ⟨S256, .f32⟩
  | .local _ .vmem, ⟨12, _⟩ => ⟨S256, .f32⟩
  | .local _ .vmem, ⟨13, _⟩ => ⟨S256, .f32⟩
  | .local _ .vmem, ⟨14, _⟩ => ⟨S256x256, .f32⟩
  | .local _ .vmem, ⟨15, _⟩ => ⟨S256, .f32⟩
  | .local _ .vmem, ⟨16, _⟩ => ⟨S256x256, .f32⟩
  | .local _ .vmem, ⟨17, _⟩ => ⟨S256, .f32⟩
  | .local _ .vmem, ⟨18, _⟩ => ⟨S1x1024x256, .f32⟩
  | .local _ .vmem, ⟨19, _⟩ => ⟨S1x1024x256, .f32⟩
  | _, _ => ⟨S16x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg16_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem16_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S1x1024x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

class Facts₀ : Prop where
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  bitsLt_bf16_f32 : FTy.bits .bf16 < FTy.bits .f32
  inb_S256_S256_0 : ∀ a, (![0] : Fin 1 → Nat) a + S256.size a ≤ S256.size a
  h_S256 : 0 < S256.numel
  shapeCasts_S256_S1x256 : S256.ShapeCasts S1x256
  broadcasts_S1x256_S1024x256 : S1x256.Broadcasts S1024x256
  inb_S256x256_S256x256_0_0 : ∀ a, (![0, 0] : Fin 2 → Nat) a + S256x256.size a ≤ S256x256.size a
  h_S256x256 : 0 < S256x256.numel
  shapeCasts_S1024x256_S1x1024x256 : S1024x256.ShapeCasts S1x1024x256
  dot_S1024x256_S256x256_S1024x256_1_0_0_1_n_n_wf : DotDims.WF S1024x256 S256x256 S1024x256 [1] [0] [0] [1] [] []
  dot_S1024x1024_S1024x256_S1024x256_1_0_0_1_n_n_wf : DotDims.WF S1024x1024 S1024x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x256.size a ≤ S16x1024x256.size a
  hwx0_0 : ∀ i : grid0.Coords, EltTy.bits .f32 = 32 ∨ (Rect.block (s := S16x1024x256) S1x1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S16x1024x1024.size a
  hwx0_1 : ∀ i : grid0.Coords, EltTy.bits .f32 = 32 ∨ (Rect.block (s := S16x1024x1024) S1x1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .f32 = 32 ∨ (Rect.block (s := S256x256) S256x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256.size a ≤ S256.size a
  hwx0_7 : ∀ i : grid0.Coords, EltTy.bits .f32 = 32 ∨ (Rect.block (s := S256) S256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256.size a ≤ S256.size a
  hwx0_8 : ∀ i : grid0.Coords, EltTy.bits .f32 = 32 ∨ (Rect.block (s := S256) S256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256.size a ≤ S256.size a
  hwx0_9 : ∀ i : grid0.Coords, EltTy.bits .f32 = 32 ∨ (Rect.block (s := S256) S256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256.size a ≤ S256.size a
  hwx0_10 : ∀ i : grid0.Coords, EltTy.bits .f32 = 32 ∨ (Rect.block (s := S256) S256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256.size a ≤ S256.size a
  hwx0_11 : ∀ i : grid0.Coords, EltTy.bits .f32 = 32 ∨ (Rect.block (s := S256) S256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S256x256.size a ≤ S256x256.size a
  hwx0_12 : ∀ i : grid0.Coords, EltTy.bits .f32 = 32 ∨ (Rect.block (s := S256x256) S256x256.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S256.size a ≤ S256.size a
  hwx0_13 : ∀ i : grid0.Coords, EltTy.bits .f32 = 32 ∨ (Rect.block (s := S256) S256.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S256x256.size a ≤ S256x256.size a
  hwx0_14 : ∀ i : grid0.Coords, EltTy.bits .f32 = 32 ∨ (Rect.block (s := S256x256) S256x256.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S256.size a ≤ S256.size a
  hwx0_15 : ∀ i : grid0.Coords, EltTy.bits .f32 = 32 ∨ (Rect.block (s := S256) S256.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S1x1024x256.size a ≤ S16x1024x256.size a
  hwx0_16 : ∀ i : grid0.Coords, EltTy.bits .f32 = 32 ∨ (Rect.block (s := S16x1024x256) S1x1024x256.size (cc0_transform_16 i) (hinb0_16 i)).WholeWords (EltTy.packing .f32)

variable [Facts₀]

def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf

abbrev win0_0 : Pipeline.Window sig grid0 :=
  Pipeline.Window.ofSpec (Memref.whole main_arg0) S1x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S256x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S256x256.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg15) S256.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v0) S1x1024x256.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S16x1024x256 : Shape := ⟨3, ![16, 1024, 256]⟩
abbrev S16x1024x1024 : Shape := ⟨3, ![16, 1024, 1024]⟩
abbrev S256 : Shape := ⟨1, ![256]⟩
abbrev S256x256 : Shape := ⟨2, ![256, 256]⟩
abbrev S1x1x256 : Shape := ⟨3, ![1, 1, 256]⟩
abbrev S_ : Shape := ⟨0, ![]⟩

abbrev nBuf : Space → Nat
  | .hbm => 78
  | .vmem => 0
  | .smem => 0
  | _ => 0

abbrev bufTy : (tb : Table) → Fin (tcTables nBuf tb) → BufTy
  | .hbm, ⟨0, _⟩ => ⟨S16x1024x256, .f32⟩
  | .hbm, ⟨1, _⟩ => ⟨S16x1024x1024, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S256x256, .f32⟩
  | .hbm, ⟨13, _⟩ => ⟨S256, .f32⟩
  | .hbm, ⟨14, _⟩ => ⟨S256x256, .f32⟩
  | .hbm, ⟨15, _⟩ => ⟨S256, .f32⟩
  | .hbm, ⟨16, _⟩ => ⟨S1x1x256, .f32⟩
  | .hbm, ⟨17, _⟩ => ⟨S16x1024x256, .f32⟩
  | .hbm, ⟨18, _⟩ => ⟨S16x1024x256, .f32⟩
  | .hbm, ⟨19, _⟩ => ⟨S1x1x256, .f32⟩
  | .hbm, ⟨20, _⟩ => ⟨S16x1024x256, .f32⟩
  | .hbm, ⟨21, _⟩ => ⟨S16x1024x256, .f32⟩
  | .hbm, ⟨22, _⟩ => ⟨S_, .f32⟩
  | .hbm, ⟨23, _⟩ => ⟨S256, .f32⟩
  | .hbm, ⟨24, _⟩ => ⟨S256, .f32⟩
  | .hbm, ⟨25, _⟩ => ⟨S256, .f32⟩
  | .hbm, ⟨26, _⟩ => ⟨S1x1x256, .f32⟩
  | .hbm, ⟨27, _⟩ => ⟨S16x1024x256, .f32⟩
  | .hbm, ⟨28, _⟩ => ⟨S16x1024x256, .f32⟩
  | .hbm, ⟨29, _⟩ => ⟨S1x1x256, .f32⟩
  | .hbm, ⟨30, _⟩ => ⟨S16x1024x256, .f32⟩
  | .hbm, ⟨31, _⟩ => ⟨S16x1024x256, .f32⟩
  | .hbm, ⟨32, _⟩ => ⟨S16x1024x256, .f32⟩
  | .hbm, ⟨33, _⟩ => ⟨S16x1024x256, .f32⟩
  | .hbm, ⟨34, _⟩ => ⟨S1x1x256, .f32⟩
  | .hbm, ⟨35, _⟩ => ⟨S16x1024x256, .f32⟩
  | .hbm, ⟨36, _⟩ => ⟨S16x1024x256, .f32⟩
  | .hbm, ⟨37, _⟩ => ⟨S_, .f32⟩
  | .hbm, ⟨38, _⟩ => ⟨S16x1024x256, .f32⟩
  | .hbm, ⟨39, _⟩ => ⟨S16x1024x256, .i1⟩
  | .hbm, ⟨40, _⟩ => ⟨S_, .f32⟩
  | .hbm, ⟨41, _⟩ => ⟨S16x1024x256, .f32⟩
  | .hbm, ⟨42, _⟩ => ⟨S16x1024x256, .f32⟩
  | .hbm, ⟨43, _⟩ => ⟨S16x1024x256, .f32⟩
  | .hbm, ⟨44, _⟩ => ⟨S1x1x256, .f32⟩
  | .hbm, ⟨45, _⟩ => ⟨S16x1024x256, .f32⟩
  | .hbm, ⟨46, _⟩ => ⟨S16x1024x256, .f32⟩
  | .hbm, ⟨47, _⟩ => ⟨S1x1x256, .f32⟩
  | .hbm, ⟨48, _⟩ => ⟨S16x1024x256, .f32⟩
  | .hbm, ⟨49, _⟩ => ⟨S16x1024x256, .f32⟩
  | .hbm, ⟨50, _⟩ => ⟨S_, .f32⟩
  | .hbm, ⟨51, _⟩ => ⟨S256, .f32⟩
  | .hbm, ⟨52, _⟩ => ⟨S256, .f32⟩
  | .hbm, ⟨53, _⟩ => ⟨S256, .f32⟩
  | .hbm, ⟨54, _⟩ => ⟨S1x1x256, .f32⟩
  | .hbm, ⟨55, _⟩ => ⟨S16x1024x256, .f32⟩
  | .hbm, ⟨56, _⟩ => ⟨S16x1024x256, .f32⟩
  | .hbm, ⟨57, _⟩ => ⟨S1x1x256, .f32⟩
  | .hbm, ⟨58, _⟩ => ⟨S16x1024x256, .f32⟩
  | .hbm, ⟨59, _⟩ => ⟨S16x1024x256, .f32⟩
  | .hbm, ⟨60, _⟩ => ⟨S16x1024x256, .f32⟩
  | .hbm, ⟨61, _⟩ => ⟨S16x1024x256, .f32⟩
  | .hbm, ⟨62, _⟩ => ⟨S1x1x256, .f32⟩
  | .hbm, ⟨63, _⟩ => ⟨S16x1024x256, .f32⟩
  | .hbm, ⟨64, _⟩ => ⟨S16x1024x256, .f32⟩
  | .hbm, ⟨65, _⟩ => ⟨S_, .f32⟩
  | .hbm, ⟨66, _⟩ => ⟨S16x1024x256, .f32⟩
  | .hbm, ⟨67, _⟩ => ⟨S16x1024x256, .i1⟩
  | .hbm, ⟨68, _⟩ => ⟨S_, .f32⟩
  | .hbm, ⟨69, _⟩ => ⟨S16x1024x256, .f32⟩
  | .hbm, ⟨70, _⟩ => ⟨S16x1024x256, .f32⟩
  | .hbm, ⟨71, _⟩ => ⟨S16x1024x256, .f32⟩
  | .hbm, ⟨72, _⟩ => ⟨S16x1024x256, .f32⟩
  | .hbm, ⟨73, _⟩ => ⟨S16x1024x256, .f32⟩
  | .hbm, ⟨74, _⟩ => ⟨S1x1x256, .f32⟩
  | .hbm, ⟨75, _⟩ => ⟨S16x1024x256, .f32⟩
  | .hbm, ⟨76, _⟩ => ⟨S16x1024x256, .f32⟩
  | .hbm, ⟨77, _⟩ => ⟨S16x1024x256, .f32⟩
  | _, _ => ⟨S16x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_cst : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_0 : Ref sig .tc := ⟨.hbm, 37, rfl⟩
abbrev main_v20 : Ref sig .tc := ⟨.hbm, 38, rfl⟩
abbrev main_v21 : Ref sig .tc := ⟨.hbm, 39, rfl⟩
abbrev main_cst_1 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_2 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_3 : Ref sig .tc := ⟨.hbm, 65, rfl⟩
abbrev main_v45 : Ref sig .tc := ⟨.hbm, 66, rfl⟩
abbrev main_v46 : Ref sig .tc := ⟨.hbm, 67, rfl⟩
abbrev main_cst_4 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S16x1024x256_0_1_2 : S1x1x256.BroadcastsInDim S16x1024x256 (![0, 1, 2] : Fin 3 → Fin S16x1024x256.rank)
  bcast_S_S256 : S_.BroadcastsInDim S256 (![] : Fin 0 → Fin S256.rank)
  bcast_S_S16x1024x256 : S_.BroadcastsInDim S16x1024x256 (![] : Fin 0 → Fin S16x1024x256.rank)
  dot_S16x1024x256_S256x256_S16x1024x256_2_0_01_1_n_n_wf : DotDims.WF S16x1024x256 S256x256 S16x1024x256 [2] [0] [0, 1] [1] [] []
  dot_S16x1024x1024_S16x1024x256_S16x1024x256_2_1_1_2_0_0_wf : DotDims.WF S16x1024x1024 S16x1024x256 S16x1024x256 [2] [1] [1] [2] [0] [0]

variable [Facts₀]

def dot_S16x1024x256_S256x256_S16x1024x256_2_0_01_1_n_n : DotDims S16x1024x256 S256x256 S16x1024x256 where
  lhsContracting := [2]
  rhsContracting := [0]
  lhsNonContracting := [0, 1]
  rhsNonContracting := [1]
  lhsBatch := []
  rhsBatch := []
  wf := dot_S16x1024x256_S256x256_S16x1024x256_2_0_01_1_n_n_wf
def dot_S16x1024x1024_S16x1024x256_S16x1024x256_2_1_1_2_0_0 : DotDims S16x1024x1024 S16x1024x256 S16x1024x256 where
  lhsContracting := [2]
  rhsContracting := [1]
  lhsNonContracting := [1]
  rhsNonContracting := [2]
  lhsBatch := [0]
  rhsBatch := [0]
  wf := dot_S16x1024x1024_S16x1024x256_S16x1024x256_2_1_1_2_0_0_wf

class Facts : Prop extends Facts₀ where

variable [Facts]
-- ==== Proof.ResBlockSpec.lean ====
/-
  The residual graph-convolution block as ONE function of its sixteen argument arrays, entry by entry, on the
  extended reals.

  For a batch of 16 graphs of 1024 nodes with 256 channels, node features `x[g, n, c]`, dense adjacency
  `A[g, n, j]`, and per-channel parameters:

    bn(γ, β, μ, σ²)(y)[g, n, c] = γ[c] · (y[g, n, c] − μ[c]) · rsqrt(σ²[c] + ε) + β[c]            (ε the binary32 word of 1e-3)
    conv(W, b)(y)[g, n, c]      = (Σ_j A[g, n, j] · Σ_k y[g, j, k] · W[k, c]) + b[c]
    leaky(v)                    = v if v ≥ 0, else λ · v                                         (λ the binary32 word of 0.3)

    h   = bn₁(x)
    out = leaky(conv₂(bn₂(leaky(conv₁(h))))) + conv_skip(h)

  Both programs compute exactly this tree of operations; neither side needs an algebraic law beyond reading a
  matrix product as the sum over its contracted axis, so the literals stay as their words and are never evaluated.
-/
import Idealize.ShloMosaic.PureOps.Ideal.Laws
import Idealize.ShloMosaic.Lib.ValueIdx

noncomputable section

namespace Cert.ResBlock

open Idealize.ShloMosaic Idealize.ShloMosaic.ValueIdx

/-- Node features of the whole batch: graph, node, channel. -/
abbrev Feat : Shape := ⟨3, ![16, 1024, 256]⟩
/-- The adjacency matrices of the batch: graph, node, neighbour. -/
abbrev Adj : Shape := ⟨3, ![16, 1024, 1024]⟩
/-- A per-channel parameter. -/
abbrev Chan : Shape := ⟨1, ![256]⟩
/-- A channel-mixing weight matrix: input channel, output channel. -/
abbrev Mix : Shape := ⟨2, ![256, 256]⟩

/-- A batch of node features by coordinates. -/
abbrev Nodes : Type := Fin 16 → Fin 1024 → Fin 256 → EReal

/-- The variance floor of the batch norms: the binary32 word of 1e-3, as the extended real it denotes. -/
def eps : EReal := Ideal.ofBits .f32 0x3A83126F#32
/-- The slope of the leaky rectifier on negative inputs: the binary32 word of 0.3. -/
def leak : EReal := Ideal.ofBits .f32 0x3E99999A#32
/-- The threshold the rectifier compares with: the zero word. -/
def thresh : EReal := Ideal.ofBits .f32 0x00000000#32

/-- Inference-mode batch norm of one entry `y` of a channel with scale `g`, shift `be`, mean `mu`, variance `var`. -/
def bnAt (g be mu var y : EReal) : EReal := g * (y - mu) * Ideal.rsqrt (var + eps) + be

/-- The leaky rectifier: `v` where `v ≥ 0`, `leak · v` elsewhere. -/
def leaky (v : EReal) : EReal := Scalar.select (Ideal.cmp .oge v thresh) v (leak * v)

/-- Batch norm over the channel axis. -/
def bnorm (g be mu var : Chan.Idx → EReal) (Y : Nodes) : Nodes :=
  fun b n c => bnAt (g (ix1 c)) (be (ix1 c)) (mu (ix1 c)) (var (ix1 c)) (Y b n c)

/-- The channel mix `Y · W`: entry `(b, n, c)` sums over the input channels. -/
def mix (Y : Nodes) (W : Mix.Idx → EReal) : Nodes :=
  fun b n c => ∑ k : Fin 256, Y b n k * W (ix2 k c)

/-- Propagation along the graph, `A · Z + bias`: entry `(b, n, c)` sums over the neighbours `j` of node `n`. -/
def propagate (A : Adj.Idx → EReal) (Z : Nodes) (bias : Chan.Idx → EReal) : Nodes :=
  fun b n c => (∑ j : Fin 1024, A (ix3 b n j) * Z b j c) + bias (ix1 c)

/-- One graph convolution: mix the channels, then propagate. -/
def gconv (A : Adj.Idx → EReal) (Y : Nodes) (W : Mix.Idx → EReal) (bias : Chan.Idx → EReal) : Nodes :=
  propagate A (mix Y W) bias

/-- The rectifier entry by entry. -/
def act (Y : Nodes) : Nodes := fun b n c => leaky (Y b n c)

/-- The normalised input `h = bn₁(x)`, which feeds both the main path and the skip path. -/
def hidden (x : Feat.Idx → EReal) (g1 be1 mu1 var1 : Chan.Idx → EReal) : Nodes :=
  bnorm g1 be1 mu1 var1 (fun b n c => x (ix3 b n c))

/-- The main path: convolution, rectifier, second batch norm, convolution, rectifier. -/
def mainPath (A : Adj.Idx → EReal) (h : Nodes) (W1 : Mix.Idx → EReal) (b1 g2 be2 mu2 var2 : Chan.Idx → EReal)
    (W2 : Mix.Idx → EReal) (b2 : Chan.Idx → EReal) : Nodes :=
  act (gconv A (bnorm g2 be2 mu2 var2 (act (gconv A h W1 b1))) W2 b2)

/-- The whole block by coordinates: main path plus the skip convolution of `h`. -/
def block (x : Feat.Idx → EReal) (A : Adj.Idx → EReal) (g1 be1 mu1 var1 : Chan.Idx → EReal) (W1 : Mix.Idx → EReal)
    (b1 g2 be2 mu2 var2 : Chan.Idx → EReal) (W2 : Mix.Idx → EReal) (b2 : Chan.Idx → EReal)
    (Ws : Mix.Idx → EReal) (bs : Chan.Idx → EReal) : Nodes :=
  fun b n c =>
    mainPath A (hidden x g1 be1 mu1 var1) W1 b1 g2 be2 mu2 var2 W2 b2 b n c
      + gconv A (hidden x g1 be1 mu1 var1) Ws bs b n c

/-- The result array: the block at each index's coordinates. -/
def result (x : Feat.Idx → EReal) (A : Adj.Idx → EReal) (g1 be1 mu1 var1 : Chan.Idx → EReal) (W1 : Mix.Idx → EReal)
    (b1 g2 be2 mu2 var2 : Chan.Idx → EReal) (W2 : Mix.Idx → EReal) (b2 : Chan.Idx → EReal)
    (Ws : Mix.Idx → EReal) (bs : Chan.Idx → EReal) : Feat.Idx → EReal :=
  fun i => block x A g1 be1 mu1 var1 W1 b1 g2 be2 mu2 var2 W2 b2 Ws bs (i 0) (i 1) (i 2)

end Cert.ResBlock

end
-- ==== Proof.RefStages.lean ====
/-
  The reference computes the residual graph-convolution block.

  The reference's @main is a straight line of whole-array operations. Read at an entry `(b, n, c)`, each stage is the
  matching layer of `Cert.ResBlock`: a per-channel parameter broadcast over graphs and nodes is read at channel `c`;
  `einsum('bnf,fc->bnc')` is the sum over the input channel; the batched `einsum('bnm,bmc->bnc')` is the sum over
  the neighbours within graph `b`. The stages are taken in program order, each resting on the previous one.
-/
import proofs.«117045_j11184094839562_1_alg».proof.Proof.Gen.ReferenceIdeal.Read
import proofs.«117045_j11184094839562_1_alg».proof.Proof.ResBlockSpec

noncomputable section

namespace Cert.ResBlock.Ref

open Idealize.ShloMosaic Idealize.ShloMosaic.ValueIdx Cert.ReferenceIdeal Cert.ReferenceIdeal.Read Cert.ResBlock

/-! ## An index is its coordinates -/

theorem chan_eq (p : Chan.Idx) (c : Fin 256) (h : (p 0).val = c.val) : p = ix1 c :=
  funext fun a => match a with | ⟨0, _⟩ => Fin.ext h

theorem mix_eq (p : Mix.Idx) (k c : Fin 256) (h0 : (p 0).val = k.val) (h1 : (p 1).val = c.val) : p = ix2 k c :=
  funext fun a => match a with | ⟨0, _⟩ => Fin.ext h0 | ⟨1, _⟩ => Fin.ext h1

theorem feat_eq (p : Feat.Idx) (b : Fin 16) (n : Fin 1024) (c : Fin 256)
    (h0 : (p 0).val = b.val) (h1 : (p 1).val = n.val) (h2 : (p 2).val = c.val) : p = ix3 b n c :=
  funext fun a => match a with | ⟨0, _⟩ => Fin.ext h0 | ⟨1, _⟩ => Fin.ext h1 | ⟨2, _⟩ => Fin.ext h2

theorem adj_eq (p : Adj.Idx) (b : Fin 16) (n j : Fin 1024)
    (h0 : (p 0).val = b.val) (h1 : (p 1).val = n.val) (h2 : (p 2).val = j.val) : p = ix3 b n j :=
  funext fun a => match a with | ⟨0, _⟩ => Fin.ext h0 | ⟨1, _⟩ => Fin.ext h1 | ⟨2, _⟩ => Fin.ext h2

section
variable (x0 : Feat.Idx → EReal) (x1 : Adj.Idx → EReal) (x2 x3 x4 x5 : Chan.Idx → EReal) (x6 : Mix.Idx → EReal)
  (x7 x8 x9 x10 x11 : Chan.Idx → EReal) (x12 : Mix.Idx → EReal) (x13 : Chan.Idx → EReal) (x14 : Mix.Idx → EReal)
  (x15 : Chan.Idx → EReal) (b : Fin 16) (n : Fin 1024) (c : Fin 256)

/-! ## The first batch norm -/

/-- `%14` is `h = bn₁(x)`. -/
theorem ref_hidden : val_main_v14 (F := Ideal) x0 x2 x3 x4 x5 (ix3 b n c) = hidden x0 x2 x3 x4 x5 b n c := by
  rw [val_main_v14_apply, val_main_v11_apply, val_main_v5_apply, val_main_v2_apply, val_main_v13_apply, val_main_v12_apply,
    val_main_v10_apply, val_main_v9_apply, val_main_v8_apply, val_main_v7_apply, val_main_v6_apply, val_main_cst_apply,
    val_main_v4_apply, val_main_v3_apply, val_main_v1_apply, val_main_v0_apply,
    chan_eq (idx_main_v3 (idx_main_v4 (ix3 b n c))) c rfl, chan_eq (idx_main_v0 (idx_main_v1 (ix3 b n c))) c rfl,
    chan_eq (idx_main_v9 (idx_main_v10 (ix3 b n c))) c rfl, chan_eq (idx_main_v12 (idx_main_v13 (ix3 b n c))) c rfl]
  rfl

/-! ## The first convolution and its rectifier -/

/-- `%15 = h · W₁`. -/
theorem ref_mix1 : val_main_v15 (F := Ideal) x0 x2 x3 x4 x5 x6 (ix3 b n c) = mix (hidden x0 x2 x3 x4 x5) x6 b n c := by
  rw [val_main_v15_apply]
  refine Finset.sum_congr rfl fun k _ => ?_
  rw [feat_eq (lidx_main_v15 (ix3 b n c) k) b n k rfl rfl rfl, mix_eq (ridx_main_v15 (ix3 b n c) k) k c rfl rfl, ref_hidden]

/-- `%19 = A · (h · W₁) + b₁`. -/
theorem ref_conv1 : val_main_v19 (F := Ideal) x0 x1 x2 x3 x4 x5 x6 x7 (ix3 b n c) = gconv x1 (hidden x0 x2 x3 x4 x5) x6 x7 b n c := by
  rw [val_main_v19_apply, val_main_v16_apply, val_main_v18_apply, val_main_v17_apply,
    chan_eq (idx_main_v17 (idx_main_v18 (ix3 b n c))) c rfl]
  refine congrArg (· + x7 (ix1 c)) (Finset.sum_congr rfl fun j _ => ?_)
  rw [adj_eq (lidx_main_v16 (ix3 b n c) j) b n j rfl rfl rfl, feat_eq (ridx_main_v16 (ix3 b n c) j) b j c rfl rfl rfl, ref_mix1]

/-- `%24 = leaky(%19)`. -/
theorem ref_act1 : val_main_v24 (F := Ideal) x0 x1 x2 x3 x4 x5 x6 x7 (ix3 b n c) = act (gconv x1 (hidden x0 x2 x3 x4 x5) x6 x7) b n c := by
  rw [val_main_v24_apply, val_main_v21_apply, val_main_v23_apply, val_main_v22_apply, val_main_cst_1_apply, val_main_v20_apply,
    val_main_cst_0_apply, ref_conv1]
  rfl

/-! ## The second batch norm, convolution and rectifier -/

/-- `%39 = bn₂(%24)`. -/
theorem ref_bn2 : val_main_v39 (F := Ideal) x0 x1 x2 x3 x4 x5 x6 x7 x8 x9 x10 x11 (ix3 b n c)
    = bnorm x8 x9 x10 x11 (act (gconv x1 (hidden x0 x2 x3 x4 x5) x6 x7)) b n c := by
  rw [val_main_v39_apply, val_main_v36_apply, val_main_v30_apply, val_main_v27_apply, val_main_v38_apply, val_main_v37_apply,
    val_main_v35_apply, val_main_v34_apply, val_main_v33_apply, val_main_v32_apply, val_main_v31_apply, val_main_cst_2_apply,
    val_main_v29_apply, val_main_v28_apply, val_main_v26_apply, val_main_v25_apply, ref_act1,
    chan_eq (idx_main_v28 (idx_main_v29 (ix3 b n c))) c rfl, chan_eq (idx_main_v25 (idx_main_v26 (ix3 b n c))) c rfl,
    chan_eq (idx_main_v34 (idx_main_v35 (ix3 b n c))) c rfl, chan_eq (idx_main_v37 (idx_main_v38 (ix3 b n c))) c rfl]
  rfl

/-- `%40 = %39 · W₂`. -/
theorem ref_mix2 : val_main_v40 (F := Ideal) x0 x1 x2 x3 x4 x5 x6 x7 x8 x9 x10 x11 x12 (ix3 b n c)
    = mix (bnorm x8 x9 x10 x11 (act (gconv x1 (hidden x0 x2 x3 x4 x5) x6 x7))) x12 b n c := by
  rw [val_main_v40_apply]
  refine Finset.sum_congr rfl fun k _ => ?_
  rw [feat_eq (lidx_main_v40 (ix3 b n c) k) b n k rfl rfl rfl, mix_eq (ridx_main_v40 (ix3 b n c) k) k c rfl rfl, ref_bn2]

/-- `%44 = A · %40 + b₂`. -/
theorem ref_conv2 : val_main_v44 (F := Ideal) x0 x1 x2 x3 x4 x5 x6 x7 x8 x9 x10 x11 x12 x13 (ix3 b n c)
    = gconv x1 (bnorm x8 x9 x10 x11 (act (gconv x1 (hidden x0 x2 x3 x4 x5) x6 x7))) x12 x13 b n c := by
  rw [val_main_v44_apply, val_main_v41_apply, val_main_v43_apply, val_main_v42_apply,
    chan_eq (idx_main_v42 (idx_main_v43 (ix3 b n c))) c rfl]
  refine congrArg (· + x13 (ix1 c)) (Finset.sum_congr rfl fun j _ => ?_)
  rw [adj_eq (lidx_main_v41 (ix3 b n c) j) b n j rfl rfl rfl, feat_eq (ridx_main_v41 (ix3 b n c) j) b j c rfl rfl rfl, ref_mix2]

/-- `%49 = leaky(%44)`: the main path. -/
theorem ref_main : val_main_v49 (F := Ideal) x0 x1 x2 x3 x4 x5 x6 x7 x8 x9 x10 x11 x12 x13 (ix3 b n c)
    = mainPath x1 (hidden x0 x2 x3 x4 x5) x6 x7 x8 x9 x10 x11 x12 x13 b n c := by
  rw [val_main_v49_apply, val_main_v46_apply, val_main_v48_apply, val_main_v47_apply, val_main_cst_4_apply, val_main_v45_apply,
    val_main_cst_3_apply, ref_conv2]
  rfl

/-! ## The skip convolution and the sum -/

/-- `%50 = h · W_skip`. -/
theorem ref_mixs : val_main_v50 (F := Ideal) x0 x2 x3 x4 x5 x14 (ix3 b n c) = mix (hidden x0 x2 x3 x4 x5) x14 b n c := by
  rw [val_main_v50_apply]
  refine Finset.sum_congr rfl fun k _ => ?_
  rw [feat_eq (lidx_main_v50 (ix3 b n c) k) b n k rfl rfl rfl, mix_eq (ridx_main_v50 (ix3 b n c) k) k c rfl rfl, ref_hidden]

/-- `%54 = A · %50 + b_skip`. -/
theorem ref_skip : val_main_v54 (F := Ideal) x0 x1 x2 x3 x4 x5 x14 x15 (ix3 b n c) = gconv x1 (hidden x0 x2 x3 x4 x5) x14 x15 b n c := by
  rw [val_main_v54_apply, val_main_v51_apply, val_main_v53_apply, val_main_v52_apply,
    chan_eq (idx_main_v52 (idx_main_v53 (ix3 b n c))) c rfl]
  refine congrArg (· + x15 (ix1 c)) (Finset.sum_congr rfl fun j _ => ?_)
  rw [adj_eq (lidx_main_v51 (ix3 b n c) j) b n j rfl rfl rfl, feat_eq (ridx_main_v51 (ix3 b n c) j) b j c rfl rfl rfl, ref_mixs]

end

/-- The reference's result array is the block, entry by entry. -/
theorem ref_result (x0 : Feat.Idx → EReal) (x1 : Adj.Idx → EReal) (x2 x3 x4 x5 : Chan.Idx → EReal) (x6 : Mix.Idx → EReal)
    (x7 x8 x9 x10 x11 : Chan.Idx → EReal) (x12 : Mix.Idx → EReal) (x13 : Chan.Idx → EReal) (x14 : Mix.Idx → EReal)
    (x15 : Chan.Idx → EReal) :
    val_main_v55 (F := Ideal) x0 x1 x2 x3 x4 x5 x6 x7 x8 x9 x10 x11 x12 x13 x14 x15
      = result x0 x1 x2 x3 x4 x5 x6 x7 x8 x9 x10 x11 x12 x13 x14 x15 := by
  funext i
  obtain ⟨b, n, c, rfl⟩ : ∃ (b : Fin 16) (n : Fin 1024) (c : Fin 256), i = ix3 b n c := ⟨i 0, i 1, i 2, eq_ix3 i⟩
  rw [val_main_v55_apply, ref_main, ref_skip]
  rfl

end Cert.ResBlock.Ref

end
-- ==== Proof.KernelBody.lean ====
/-
  What the kernel's body computes for ONE graph, entry by entry.

  At a grid point the body holds one graph's node features `X` ([1, 1024, 256]) and adjacency `Ab` ([1, 1024, 1024])
  and the whole parameter arrays. Its stored value is a tree of matrix-shaped operations on [1024, 256] values. Read at
  an entry `(n, c)`:
    * a per-channel vector cast to a row and broadcast down the nodes is the vector at `c`;
    * a matrix product into the zero accumulator is the sum over its contracted axis (the conversions to the narrower
      float format in front of each product are the identity on the extended reals);
    * compare-and-select against the zero splat is the leaky rectifier.
  So if `X` and `Ab` are graph `t` of the full arrays, the stored value at `(n, c)` is `Cert.ResBlock.block` at
  `(t, n, c)`.
-/
import proofs.«117045_j11184094839562_1_alg».proof.Proof.Gen.KernelIdeal.Skeleton
import proofs.«117045_j11184094839562_1_alg».proof.Proof.ResBlockSpec
import Idealize.ShloMosaic.Lib.ValueLayout
import Idealize.ShloMosaic.Lib.ValueIdx
import Idealize.ShloMosaic.PureOps.Ideal.Laws

noncomputable section

namespace Cert.ResBlock.Body

open Idealize.ShloMosaic Idealize.ShloMosaic.ValueIdx Cert.KernelIdeal Cert.KernelIdeal.Gen Cert.ResBlock

/-! ## A channel vector laid along the rows -/

/-- A [256] vector cast to [1, 256] and broadcast to [1024, 256] reads, at `(n, c)`, the vector at `c`. -/
theorem row_apply (v : FVec Ideal S256 .f32) (n : Fin 1024) (c : Fin 256) :
    broadcastTo S1024x256 (shapeCast S1x256 v shapeCasts_S256_S1x256) broadcasts_S1x256_S1024x256 (ix2 n c) = v (ix1 c) :=
  (broadcastTo_1b_ab_apply _ broadcasts_S1x256_S1024x256 n c).trans (shapeCast_a_1a_apply v shapeCasts_S256_S1x256 0 c)

/-! ## The two matrix products as sums -/

theorem lhs_mix_0 (i : S1024x256.Idx) (q : dot_S1024x256_S256x256_S1024x256_1_0_0_1_n_n.contr.Idx) : (dot_S1024x256_S256x256_S1024x256_1_0_0_1_n_n.lhsIdx i q 0).val = (i 0).val := by
  unfold DotDims.lhsIdx
  rw [dif_neg (show ¬(0 : Fin S1024x256.rank) ∈ dot_S1024x256_S256x256_S1024x256_1_0_0_1_n_n.lhsBatch by decide), dif_pos (show (0 : Fin S1024x256.rank) ∈ dot_S1024x256_S256x256_S1024x256_1_0_0_1_n_n.lhsNonContracting by decide)]
  rfl
theorem lhs_mix_1 (i : S1024x256.Idx) (q : dot_S1024x256_S256x256_S1024x256_1_0_0_1_n_n.contr.Idx) : (dot_S1024x256_S256x256_S1024x256_1_0_0_1_n_n.lhsIdx i q 1).val = (q ⟨0, by decide⟩).val :=
  dot_S1024x256_S256x256_S1024x256_1_0_0_1_n_n.lhsIdx_val_of_single rfl i q
theorem rhs_mix_0 (i : S1024x256.Idx) (q : dot_S1024x256_S256x256_S1024x256_1_0_0_1_n_n.contr.Idx) : (dot_S1024x256_S256x256_S1024x256_1_0_0_1_n_n.rhsIdx i q 0).val = (q ⟨0, by decide⟩).val :=
  dot_S1024x256_S256x256_S1024x256_1_0_0_1_n_n.rhsIdx_val_of_single rfl i q
theorem rhs_mix_1 (i : S1024x256.Idx) (q : dot_S1024x256_S256x256_S1024x256_1_0_0_1_n_n.contr.Idx) : (dot_S1024x256_S256x256_S1024x256_1_0_0_1_n_n.rhsIdx i q 1).val = (i 1).val := by
  unfold DotDims.rhsIdx
  rw [dif_neg (show ¬(1 : Fin S256x256.rank) ∈ dot_S1024x256_S256x256_S1024x256_1_0_0_1_n_n.rhsBatch by decide), dif_pos (show (1 : Fin S256x256.rank) ∈ dot_S1024x256_S256x256_S1024x256_1_0_0_1_n_n.rhsNonContracting by decide)]
  rfl

/-- The channel mix [1024, 256] · [256, 256] into zero, at `(n, c)`: the sum over the input channel. -/
theorem mm_mix (Y : FVec Ideal S1024x256 .bf16) (W : FVec Ideal S256x256 .bf16) (n : Fin 1024) (c : Fin 256) :
    matmul dot_S1024x256_S256x256_S1024x256_1_0_0_1_n_n none Y W (constant (F := Ideal) S1024x256 .f32 0x00000000#32) (ix2 n c) = ∑ k : Fin 256, Y (ix2 n k) * W (ix2 k c) := by
  simp only [matmul]
  rw [Ideal.matmul_constant_zero_apply, ← Equiv.sum_comp (contrEquiv1 dot_S1024x256_S256x256_S1024x256_1_0_0_1_n_n 256 rfl rfl).symm]
  refine Finset.sum_congr rfl fun k _ => ?_
  have hk := contrEquiv1_symm_val dot_S1024x256_S256x256_S1024x256_1_0_0_1_n_n 256 rfl rfl k
  have el : dot_S1024x256_S256x256_S1024x256_1_0_0_1_n_n.lhsIdx (ix2 n c) ((contrEquiv1 dot_S1024x256_S256x256_S1024x256_1_0_0_1_n_n 256 rfl rfl).symm k) = ix2 n k := funext fun a => Fin.ext (by
    match a with
    | ⟨0, _⟩ => exact lhs_mix_0 _ _
    | ⟨1, _⟩ => exact (lhs_mix_1 _ _).trans hk)
  have er : dot_S1024x256_S256x256_S1024x256_1_0_0_1_n_n.rhsIdx (ix2 n c) ((contrEquiv1 dot_S1024x256_S256x256_S1024x256_1_0_0_1_n_n 256 rfl rfl).symm k) = ix2 k c := funext fun a => Fin.ext (by
    match a with
    | ⟨0, _⟩ => exact (rhs_mix_0 _ _).trans hk
    | ⟨1, _⟩ => exact rhs_mix_1 _ _)
  rw [el, er]

theorem lhs_prop_0 (i : S1024x256.Idx) (q : dot_S1024x1024_S1024x256_S1024x256_1_0_0_1_n_n.contr.Idx) : (dot_S1024x1024_S1024x256_S1024x256_1_0_0_1_n_n.lhsIdx i q 0).val = (i 0).val := by
  unfold DotDims.lhsIdx
  rw [dif_neg (show ¬(0 : Fin S1024x1024.rank) ∈ dot_S1024x1024_S1024x256_S1024x256_1_0_0_1_n_n.lhsBatch by decide), dif_pos (show (0 : Fin S1024x1024.rank) ∈ dot_S1024x1024_S1024x256_S1024x256_1_0_0_1_n_n.lhsNonContracting by decide)]
  rfl
theorem lhs_prop_1 (i : S1024x256.Idx) (q : dot_S1024x1024_S1024x256_S1024x256_1_0_0_1_n_n.contr.Idx) : (dot_S1024x1024_S1024x256_S1024x256_1_0_0_1_n_n.lhsIdx i q 1).val = (q ⟨0, by decide⟩).val :=
  dot_S1024x1024_S1024x256_S1024x256_1_0_0_1_n_n.lhsIdx_val_of_single rfl i q
theorem rhs_prop_0 (i : S1024x256.Idx) (q : dot_S1024x1024_S1024x256_S1024x256_1_0_0_1_n_n.contr.Idx) : (dot_S1024x1024_S1024x256_S1024x256_1_0_0_1_n_n.rhsIdx i q 0).val = (q ⟨0, by decide⟩).val :=
  dot_S1024x1024_S1024x256_S1024x256_1_0_0_1_n_n.rhsIdx_val_of_single rfl i q
theorem rhs_prop_1 (i : S1024x256.Idx) (q : dot_S1024x1024_S1024x256_S1024x256_1_0_0_1_n_n.contr.Idx) : (dot_S1024x1024_S1024x256_S1024x256_1_0_0_1_n_n.rhsIdx i q 1).val = (i 1).val := by
  unfold DotDims.rhsIdx
  rw [dif_neg (show ¬(1 : Fin S1024x256.rank) ∈ dot_S1024x1024_S1024x256_S1024x256_1_0_0_1_n_n.rhsBatch by decide), dif_pos (show (1 : Fin S1024x256.rank) ∈ dot_S1024x1024_S1024x256_S1024x256_1_0_0_1_n_n.rhsNonContracting by decide)]
  rfl

/-- The propagation [1024, 1024] · [1024, 256] into zero, at `(n, c)`: the sum over the neighbours. -/
theorem mm_prop (P : FVec Ideal S1024x1024 .bf16) (Zb : FVec Ideal S1024x256 .bf16) (n : Fin 1024) (c : Fin 256) :
    matmul dot_S1024x1024_S1024x256_S1024x256_1_0_0_1_n_n none P Zb (constant (F := Ideal) S1024x256 .f32 0x00000000#32) (ix2 n c) = ∑ j : Fin 1024, P (ix2 n j) * Zb (ix2 j c) := by
  simp only [matmul]
  rw [Ideal.matmul_constant_zero_apply, ← Equiv.sum_comp (contrEquiv1 dot_S1024x1024_S1024x256_S1024x256_1_0_0_1_n_n 1024 rfl rfl).symm]
  refine Finset.sum_congr rfl fun j _ => ?_
  have hj := contrEquiv1_symm_val dot_S1024x1024_S1024x256_S1024x256_1_0_0_1_n_n 1024 rfl rfl j
  have el : dot_S1024x1024_S1024x256_S1024x256_1_0_0_1_n_n.lhsIdx (ix2 n c) ((contrEquiv1 dot_S1024x1024_S1024x256_S1024x256_1_0_0_1_n_n 1024 rfl rfl).symm j) = ix2 n j := funext fun a => Fin.ext (by
    match a with
    | ⟨0, _⟩ => exact lhs_prop_0 _ _
    | ⟨1, _⟩ => exact (lhs_prop_1 _ _).trans hj)
  have er : dot_S1024x1024_S1024x256_S1024x256_1_0_0_1_n_n.rhsIdx (ix2 n c) ((contrEquiv1 dot_S1024x1024_S1024x256_S1024x256_1_0_0_1_n_n 1024 rfl rfl).symm j) = ix2 j c := funext fun a => Fin.ext (by
    match a with
    | ⟨0, _⟩ => exact (rhs_prop_0 _ _).trans hj
    | ⟨1, _⟩ => exact rhs_prop_1 _ _)
  rw [el, er]

/-! ## The small payloads -/

/-- The adjacency as the matrix the products use: the unit axis dropped. -/
theorem pay2_apply (Ab : Vec Ideal S1x1024x1024 .f32) (n j : Fin 1024) :
    k0_pay2 (F := Ideal) Ab (ix2 n j) = Ab (ix3 0 n j) := by
  unfold k0_pay2
  exact shapeCast_1ab_ab_apply Ab shapeCasts_S1x1024x1024_S1024x1024 n j

/-- The stored value: the unit axis put back. -/
theorem pay1_apply (v : FVec Ideal S1024x256 .f32) (u : Fin 1) (n : Fin 1024) (c : Fin 256) :
    k0_pay1 (F := Ideal) v (ix3 u n c) = v (ix2 n c) := by
  unfold k0_pay1
  exact shapeCast_ab_1ab_apply v shapeCasts_S1024x256_S1x1024x256 u n c

/-! ## The layers at an entry -/

/-- Batch norm of a [1024, 256] value by four channel vectors laid along the rows. -/
theorem bn_apply (Yb : FVec Ideal S1024x256 .f32) (g mu var be : FVec Ideal S256 .f32) (n : Fin 1024) (c : Fin 256) :
    addf (mulf (mulf (broadcastTo S1024x256 (shapeCast S1x256 g shapeCasts_S256_S1x256) broadcasts_S1x256_S1024x256) (subf Yb (broadcastTo S1024x256 (shapeCast S1x256 mu shapeCasts_S256_S1x256) broadcasts_S1x256_S1024x256)))
        (broadcastTo S1024x256 (shapeCast S1x256 (rsqrt (addf var (broadcast S256 (Scalar.ofBits .f32 0x3A83126F#32)))) shapeCasts_S256_S1x256) broadcasts_S1x256_S1024x256))
      (broadcastTo S1024x256 (shapeCast S1x256 be shapeCasts_S256_S1x256) broadcasts_S1x256_S1024x256) (ix2 n c)
      = bnAt (g (ix1 c)) (be (ix1 c)) (mu (ix1 c)) (var (ix1 c)) (Yb (ix2 n c)) := by
  show broadcastTo S1024x256 (shapeCast S1x256 g shapeCasts_S256_S1x256) broadcasts_S1x256_S1024x256 (ix2 n c) * (Yb (ix2 n c) - broadcastTo S1024x256 (shapeCast S1x256 mu shapeCasts_S256_S1x256) broadcasts_S1x256_S1024x256 (ix2 n c))
        * broadcastTo S1024x256 (shapeCast S1x256 (rsqrt (addf var (broadcast S256 (Scalar.ofBits .f32 0x3A83126F#32)))) shapeCasts_S256_S1x256) broadcasts_S1x256_S1024x256 (ix2 n c)
        + broadcastTo S1024x256 (shapeCast S1x256 be shapeCasts_S256_S1x256) broadcasts_S1x256_S1024x256 (ix2 n c) = _
  rw [row_apply, row_apply, row_apply, row_apply]
  rfl

/-- The rectifier as the body spells it: compare with the zero splat, select between the value and its scaling. -/
theorem leaky_apply (Zb : FVec Ideal S1024x256 .f32) (n : Fin 1024) (c : Fin 256) :
    select (cmpf .oge Zb (broadcast S1024x256 (Scalar.ofBits .f32 0x00000000#32))) Zb
        (mulf (broadcast S1024x256 (Scalar.ofBits .f32 0x3E99999A#32)) Zb) (ix2 n c)
      = leaky (Zb (ix2 n c)) := rfl

section
variable (x : Feat.Idx → EReal) (A : Adj.Idx → EReal) (t : Fin 16)
  (X : Vec Ideal S1x1024x256 .f32) (Ab : Vec Ideal S1x1024x1024 .f32)
  (hX : ∀ (n : Fin 1024) (k : Fin 256), X (ix3 0 n k) = x (ix3 t n k))
  (hA : ∀ (n j : Fin 1024), Ab (ix3 0 n j) = A (ix3 t n j))

include hA in
/-- One graph convolution of a [1024, 256] value `Yb` that is graph `t` of `Y`. -/
theorem conv_apply (Y : Nodes) (Yb : FVec Ideal S1024x256 .bf16) (hY : ∀ (n : Fin 1024) (k : Fin 256), Yb (ix2 n k) = Y t n k)
    (W : FVec Ideal S256x256 .f32) (bias : FVec Ideal S256 .f32) (n : Fin 1024) (c : Fin 256) :
    addf (matmul dot_S1024x1024_S1024x256_S1024x256_1_0_0_1_n_n none (k0_pay2 (F := Ideal) Ab)
          (truncf .bf16 (matmul dot_S1024x256_S256x256_S1024x256_1_0_0_1_n_n none Yb (truncf .bf16 W bitsLt_bf16_f32) (constant (F := Ideal) S1024x256 .f32 0x00000000#32)) bitsLt_bf16_f32) (constant (F := Ideal) S1024x256 .f32 0x00000000#32))
        (broadcastTo S1024x256 (shapeCast S1x256 bias shapeCasts_S256_S1x256) broadcasts_S1x256_S1024x256) (ix2 n c)
      = gconv A Y W bias t n c := by
  show matmul dot_S1024x1024_S1024x256_S1024x256_1_0_0_1_n_n none (k0_pay2 (F := Ideal) Ab)
          (truncf .bf16 (matmul dot_S1024x256_S256x256_S1024x256_1_0_0_1_n_n none Yb (truncf .bf16 W bitsLt_bf16_f32) (constant (F := Ideal) S1024x256 .f32 0x00000000#32)) bitsLt_bf16_f32) (constant (F := Ideal) S1024x256 .f32 0x00000000#32) (ix2 n c)
        + broadcastTo S1024x256 (shapeCast S1x256 bias shapeCasts_S256_S1x256) broadcasts_S1x256_S1024x256 (ix2 n c) = _
  rw [row_apply, mm_prop]
  refine congrArg (· + bias (ix1 c)) (Finset.sum_congr rfl fun j _ => ?_)
  rw [pay2_apply, hA]
  refine congrArg (A (ix3 t n j) * ·) ?_
  show matmul dot_S1024x256_S256x256_S1024x256_1_0_0_1_n_n none Yb (truncf .bf16 W bitsLt_bf16_f32) (constant (F := Ideal) S1024x256 .f32 0x00000000#32) (ix2 j c) = _
  rw [mm_mix]
  refine Finset.sum_congr rfl fun k _ => ?_
  rw [hY]
  rfl

variable (g1 be1 mu1 var1 : FVec Ideal S256 .f32) (W1 : FVec Ideal S256x256 .f32) (b1 g2 be2 mu2 var2 : FVec Ideal S256 .f32)
  (W2 : FVec Ideal S256x256 .f32) (b2 : FVec Ideal S256 .f32) (Ws : FVec Ideal S256x256 .f32) (bs : FVec Ideal S256 .f32)

include hX in
/-- The normalised input of graph `t`. -/
theorem pay3_apply (n : Fin 1024) (k : Fin 256) :
    k0_pay3 (F := Ideal) X g1 mu1 var1 be1 (ix2 n k) = hidden x g1 be1 mu1 var1 t n k := by
  unfold k0_pay3
  refine (bn_apply (shapeCast S1024x256 X shapeCasts_S1x1024x256_S1024x256) g1 mu1 var1 be1 n k).trans ?_
  rw [shapeCast_1ab_ab_apply, hX]
  rfl

include hX hA in
/-- The first convolution and rectifier of graph `t`. -/
theorem pay4_apply (n : Fin 1024) (k : Fin 256) :
    k0_pay4 (F := Ideal) X Ab g1 mu1 var1 be1 W1 b1 (ix2 n k) = act (gconv A (hidden x g1 be1 mu1 var1) W1 b1) t n k := by
  unfold k0_pay4
  refine (leaky_apply _ n k).trans (congrArg leaky ?_)
  exact conv_apply A t Ab hA (hidden x g1 be1 mu1 var1) (k0_pay3 (F := Ideal) X g1 mu1 var1 be1)
    (pay3_apply x t X hX g1 be1 mu1 var1) W1 b1 n k

include hX hA in
/-- The rest of the body: second batch norm, convolution and rectifier, the skip convolution, and their sum. -/
theorem pay5_apply (n : Fin 1024) (c : Fin 256) :
    k0_pay5 (F := Ideal) (k0_pay2 (F := Ideal) Ab) (k0_pay3 (F := Ideal) X g1 mu1 var1 be1)
        (k0_pay4 (F := Ideal) X Ab g1 mu1 var1 be1 W1 b1) g2 mu2 var2 be2 W2 b2 Ws bs (ix2 n c)
      = block x A g1 be1 mu1 var1 W1 b1 g2 be2 mu2 var2 W2 b2 Ws bs t n c := by
  unfold k0_pay5
  show _ + _ = _
  refine congrArg₂ (· + ·) ?_ ?_
  · refine (leaky_apply _ n c).trans (congrArg leaky ?_)
    refine conv_apply A t Ab hA (bnorm g2 be2 mu2 var2 (act (gconv A (hidden x g1 be1 mu1 var1) W1 b1))) _ (fun n' k' => ?_) W2 b2 n c
    refine (bn_apply (k0_pay4 (F := Ideal) X Ab g1 mu1 var1 be1 W1 b1) g2 mu2 var2 be2 n' k').trans ?_
    rw [pay4_apply x A t X Ab hX hA g1 be1 mu1 var1 W1 b1]
    rfl
  · exact conv_apply A t Ab hA (hidden x g1 be1 mu1 var1) (k0_pay3 (F := Ideal) X g1 mu1 var1 be1)
      (pay3_apply x t X hX g1 be1 mu1 var1) Ws bs n c

include hX hA in
/-- What the body stores, at an entry of its [1, 1024, 256] block: the block function at graph `t`. -/
theorem stored_apply (u : Fin 1) (n : Fin 1024) (c : Fin 256) :
    k0_pay1 (F := Ideal) (k0_pay5 (F := Ideal) (k0_pay2 (F := Ideal) Ab) (k0_pay3 (F := Ideal) X g1 mu1 var1 be1)
        (k0_pay4 (F := Ideal) X Ab g1 mu1 var1 be1 W1 b1) g2 mu2 var2 be2 W2 b2 Ws bs) (ix3 u n c)
      = block x A g1 be1 mu1 var1 W1 b1 g2 be2 mu2 var2 W2 b2 Ws bs t n c :=
  (pay1_apply _ u n c).trans (pay5_apply x A t X Ab hX hA g1 be1 mu1 var1 W1 b1 g2 be2 mu2 var2 W2 b2 Ws bs n c)

end

end Cert.ResBlock.Body

end
-- ==== Proof.KernelArray.lean ====
/-
  From the kernel's blocks to its result array.

  The grid has one point per graph. At point t the pipeline stages graph t of the node features and of the adjacency
  (blocks [1, 1024, 256] and [1, 1024, 1024] at block index (t, 0, 0)) and every parameter array whole (block index 0),
  and writes the body's [1, 1024, 256] result back to graph t of the output. The body's one store covers its block, so
  what point t writes back is the stored value of Cert.ResBlock.Body at graph t; the sixteen blocks tile the output
  array, so after the run the output array is Cert.ResBlock.result of the argument arrays.
-/
import proofs.«117045_j11184094839562_1_alg».proof.Proof.Gen.KernelIdeal.Value
import proofs.«117045_j11184094839562_1_alg».proof.Proof.KernelBody
import Idealize.ShloMosaic.Lib.Pipeline.Value
import Idealize.ShloMosaic.Lib.Tactic

noncomputable section

namespace Cert.ResBlock.Arr

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Value Cert.ResBlock

variable (m : (ℓ : Loc nD τ sig) → Buf (Elt Ideal) ℓ) (ρ : Dev nD → PrngReg)

theorem zero_offsets3 : (![0, 0, 0] : Fin 3 → Nat) = fun _ => 0 := funext fun a => by fin_cases a <;> rfl
theorem zero_offsets2 : (![0, 0] : Fin 2 → Nat) = fun _ => 0 := funext fun a => by fin_cases a <;> rfl
theorem zero_offsets1 : (![0] : Fin 1 → Nat) = fun _ => 0 := funext fun a => by fin_cases a <;> rfl

/-- The result array the kernel should leave: the block function of the argument arrays as the region finds them. -/
abbrev resultArray (c : Dev nD) : S16x1024x256.Idx → EReal :=
  result (V m c main_arg0) (V m c main_arg1) (V m c main_arg2) (V m c main_arg3) (V m c main_arg4) (V m c main_arg5)
    (V m c main_arg6) (V m c main_arg7) (V m c main_arg8) (V m c main_arg9) (V m c main_arg10) (V m c main_arg11)
    (V m c main_arg12) (V m c main_arg13) (V m c main_arg14) (V m c main_arg15)

/-! ## The body's one store covers its block -/

theorem one_store_covers (x0 : Vec Ideal S1x1024x256 .f32) (x1 : Vec Ideal S1x1024x1024 .f32) (x2 x3 x4 x5 : Vec Ideal S256 .f32)
    (x6 : Vec Ideal S256x256 .f32) (x7 x8 x9 x10 x11 : Vec Ideal S256 .f32) (x12 : Vec Ideal S256x256 .f32)
    (x13 : Vec Ideal S256 .f32) (x14 : Vec Ideal S256x256 .f32) (x15 : Vec Ideal S256 .f32) :
    out0_16 (F := Ideal) x0 x1 x2 x3 x4 x5 x6 x7 x8 x9 x10 x11 x12 x13 x14 x15
      = k0_pay1 (k0_pay5 (k0_pay2 x1) (k0_pay3 x0 x2 x4 x5 x3) (k0_pay4 x0 x1 x2 x4 x5 x3 x6 x7) x8 x10 x11 x9 x12 x13 x14 x15) := by
  unfold out0_16
  rw [View.canon_unit_zero zero_offsets3]
  simp only [View.ld_unit_zero (S := S1x1024x256) zero_offsets3, View.ld_unit_zero (S := S1x1024x1024) zero_offsets3,
    View.ld_unit_zero (S := S256) zero_offsets1, View.ld_unit_zero (S := S256x256) zero_offsets2]

/-! ## The windows' blocks as parts of the argument arrays -/

/-- The three windows that move with the grid sit at block index (t, 0, 0). -/
theorem moving_windows_at_graph : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_16.index t (0 : Fin 3) = t.val ∧ win0_16.index t (1 : Fin 3) = 0 ∧ win0_16.index t (2 : Fin 3) = 0 :=
  (by decide +kernel : ∀ t : Fin grid0.N, _)

/-- The feature block at point t is graph t of the feature array. -/
theorem features_block_is_graph (c : Dev nD) (t : Fin cfg0.N) (tg : Fin 16) (htg : tg.val = t.val) (n : Fin 1024) (k : Fin 256) :
    (iblk m c 0 t : Vec Ideal S1x1024x256 .f32) (ix3 0 n k) = (V m c main_arg0 : S16x1024x256.Idx → EReal) (ix3 tg n k) := by
  obtain ⟨e0, e1, e2, -⟩ := moving_windows_at_graph t
  unfold iblk
  rw [View.read_apply]
  show V m c main_arg0 _ = V m c main_arg0 _
  congr 1
  funext a
  apply Fin.ext
  match a with
  | ⟨0, _⟩ => show win0_0.index t (0 : Fin 3) * 1 + 1 * 0 = tg.val; omega
  | ⟨1, _⟩ => show win0_0.index t (1 : Fin 3) * 1024 + 1 * n.val = n.val; omega
  | ⟨2, _⟩ => show win0_0.index t (2 : Fin 3) * 256 + 1 * k.val = k.val; omega

/-- The adjacency block at point t is graph t of the adjacency array. -/
theorem adjacency_block_is_graph (c : Dev nD) (t : Fin cfg0.N) (tg : Fin 16) (htg : tg.val = t.val) (n j : Fin 1024) :
    (iblk m c 1 t : Vec Ideal S1x1024x1024 .f32) (ix3 0 n j) = (V m c main_arg1 : S16x1024x1024.Idx → EReal) (ix3 tg n j) := by
  obtain ⟨-, -, -, e0, e1, e2, -⟩ := moving_windows_at_graph t
  unfold iblk
  rw [View.read_apply]
  show V m c main_arg1 _ = V m c main_arg1 _
  congr 1
  funext a
  apply Fin.ext
  match a with
  | ⟨0, _⟩ => show win0_1.index t (0 : Fin 3) * 1 + 1 * 0 = tg.val; omega
  | ⟨1, _⟩ => show win0_1.index t (1 : Fin 3) * 1024 + 1 * n.val = n.val; omega
  | ⟨2, _⟩ => show win0_1.index t (2 : Fin 3) * 1024 + 1 * j.val = j.val; omega

/-- A parameter window's block is its whole array read at zero offsets: the array. -/
local macro "whole_array " b:term : tactic =>
  `(tactic| exact Memref.read_access_unit_zero (Elt Ideal) $b (funext fun a => by fin_cases a <;> rfl) _ _)

theorem bn1_scale_whole (c : Dev nD) (t : Fin cfg0.N) : (iblk m c 2 t : Vec Ideal S256 .f32) = V m c main_arg2 := by whole_array main_arg2
theorem bn1_shift_whole (c : Dev nD) (t : Fin cfg0.N) : (iblk m c 3 t : Vec Ideal S256 .f32) = V m c main_arg3 := by whole_array main_arg3
theorem bn1_mean_whole (c : Dev nD) (t : Fin cfg0.N) : (iblk m c 4 t : Vec Ideal S256 .f32) = V m c main_arg4 := by whole_array main_arg4
theorem bn1_var_whole (c : Dev nD) (t : Fin cfg0.N) : (iblk m c 5 t : Vec Ideal S256 .f32) = V m c main_arg5 := by whole_array main_arg5
theorem w1_whole (c : Dev nD) (t : Fin cfg0.N) : (iblk m c 6 t : Vec Ideal S256x256 .f32) = V m c main_arg6 := by whole_array main_arg6
theorem b1_whole (c : Dev nD) (t : Fin cfg0.N) : (iblk m c 7 t : Vec Ideal S256 .f32) = V m c main_arg7 := by whole_array main_arg7
theorem bn2_scale_whole (c : Dev nD) (t : Fin cfg0.N) : (iblk m c 8 t : Vec Ideal S256 .f32) = V m c main_arg8 := by whole_array main_arg8
theorem bn2_shift_whole (c : Dev nD) (t : Fin cfg0.N) : (iblk m c 9 t : Vec Ideal S256 .f32) = V m c main_arg9 := by whole_array main_arg9
theorem bn2_mean_whole (c : Dev nD) (t : Fin cfg0.N) : (iblk m c 10 t : Vec Ideal S256 .f32) = V m c main_arg10 := by whole_array main_arg10
theorem bn2_var_whole (c : Dev nD) (t : Fin cfg0.N) : (iblk m c 11 t : Vec Ideal S256 .f32) = V m c main_arg11 := by whole_array main_arg11
theorem w2_whole (c : Dev nD) (t : Fin cfg0.N) : (iblk m c 12 t : Vec Ideal S256x256 .f32) = V m c main_arg12 := by whole_array main_arg12
theorem b2_whole (c : Dev nD) (t : Fin cfg0.N) : (iblk m c 13 t : Vec Ideal S256 .f32) = V m c main_arg13 := by whole_array main_arg13
theorem w_skip_whole (c : Dev nD) (t : Fin cfg0.N) : (iblk m c 14 t : Vec Ideal S256x256 .f32) = V m c main_arg14 := by whole_array main_arg14
theorem b_skip_whole (c : Dev nD) (t : Fin cfg0.N) : (iblk m c 15 t : Vec Ideal S256 .f32) = V m c main_arg15 := by whole_array main_arg15

/-! ## What a point writes back -/

/-- The stored value at point t, as a function on the [1, 1024, 256] block: graph tg of the result array. -/
theorem point_stores_graph (c : Dev nD) (t : Fin cfg0.N) (tg : Fin 16) (htg : tg.val = t.val) :
    k0_pay1 (F := Ideal) (k0_pay5 (k0_pay2 (iblk m c 1 t)) (k0_pay3 (iblk m c 0 t) (iblk m c 2 t) (iblk m c 4 t) (iblk m c 5 t) (iblk m c 3 t))
        (k0_pay4 (iblk m c 0 t) (iblk m c 1 t) (iblk m c 2 t) (iblk m c 4 t) (iblk m c 5 t) (iblk m c 3 t) (iblk m c 6 t) (iblk m c 7 t))
        (iblk m c 8 t) (iblk m c 10 t) (iblk m c 11 t) (iblk m c 9 t) (iblk m c 12 t) (iblk m c 13 t) (iblk m c 14 t) (iblk m c 15 t))
      = fun y : S1x1024x256.Idx => resultArray m c (ix3 tg (⟨(y 1).val, (y 1).isLt⟩ : Fin 1024) (⟨(y 2).val, (y 2).isLt⟩ : Fin 256)) := by
  funext y
  obtain ⟨u, n, k, rfl⟩ : ∃ (u : Fin 1) (n : Fin 1024) (k : Fin 256), y = ix3 u n k := ⟨y 0, y 1, y 2, eq_ix3 y⟩
  rw [bn1_scale_whole m c t, bn1_shift_whole m c t, bn1_mean_whole m c t, bn1_var_whole m c t, w1_whole m c t, b1_whole m c t, bn2_scale_whole m c t, bn2_shift_whole m c t, bn2_mean_whole m c t,
    bn2_var_whole m c t, w2_whole m c t, b2_whole m c t, w_skip_whole m c t, b_skip_whole m c t]
  exact Body.stored_apply (V m c main_arg0) (V m c main_arg1) tg (iblk m c 0 t) (iblk m c 1 t)
    (features_block_is_graph m c t tg htg) (adjacency_block_is_graph m c t tg htg)
    (V m c main_arg2) (V m c main_arg3) (V m c main_arg4) (V m c main_arg5) (V m c main_arg6) (V m c main_arg7)
    (V m c main_arg8) (V m c main_arg9) (V m c main_arg10) (V m c main_arg11) (V m c main_arg12) (V m c main_arg13)
    (V m c main_arg14) (V m c main_arg15) u n k

/-- WHAT POINT t WRITES BACK is block t of the result array. -/
theorem point_writes_back_graph (c : Dev nD) (t : Fin cfg0.N) :
    (dats m 0 c).flushed 16 t = ((cfg0.win 16).blk t).view.read (Elt Ideal) (resultArray m c) := by
  have ht : t.val < 16 := lt_of_lt_of_eq t.isLt N_0
  obtain ⟨-, -, -, -, -, -, e0, e1, e2⟩ := moving_windows_at_graph t
  rw [Value.flushed16, one_store_covers, point_stores_graph m c t ⟨t.val, ht⟩ rfl]
  funext j
  rw [View.read_apply]
  show resultArray m c _ = resultArray m c _
  congr 1
  funext a
  apply Fin.ext
  have hj0 : (j 0).val < 1 := (j 0).isLt
  match a with
  | ⟨0, _⟩ => show t.val = win0_16.index t (0 : Fin 3) * 1 + 1 * (j 0).val; omega
  | ⟨1, _⟩ => show (j 1).val = win0_16.index t (1 : Fin 3) * 1024 + 1 * (j 1).val; omega
  | ⟨2, _⟩ => show (j 2).val = win0_16.index t (2 : Fin 3) * 256 + 1 * (j 2).val; omega

/-! ## The sixteen blocks tile the output -/

/-- An index of the array is in point t's block iff each coordinate is in the block's range on its axis. -/
theorem mem_graph_block (t : Fin cfg0.N) (i : S16x1024x256.Idx) :
    i ∈ ((cfg0.win 16).blk t).view.set ↔ ∀ a : Fin 3, win0_16.index t a * S1x1024x256.size a ≤ (i a).val ∧ (i a).val < win0_16.index t a * S1x1024x256.size a + S1x1024x256.size a := by
  show i ∈ ((View.whole main_v0).slice (win0_16.rect t)).set ↔ _
  rw [View.set_slice_whole, Rect.mem_set_unit]
  exact Iff.rfl

/-- Every entry of the output lies in the block of its graph's point. -/
theorem graphs_tile_output (i : S16x1024x256.Idx) : ∃ t : Fin cfg0.N, (cfg0.win 16).flush t = true ∧ i ∈ ((cfg0.win 16).blk t).view.set := by
  have h0 : (i 0).val < 16 := (i 0).isLt
  have h1 : (i 1).val < 1024 := (i 1).isLt
  have h2 : (i 2).val < 256 := (i 2).isLt
  have hN : (i 0).val < cfg0.N := by rw [show cfg0.N = 16 from N_0]; exact h0
  obtain ⟨-, -, -, -, -, -, e0', e1, e2⟩ := moving_windows_at_graph ⟨(i 0).val, hN⟩
  have e0 : win0_16.index ⟨(i 0).val, hN⟩ (0 : Fin 3) = (i 0).val := e0'
  refine ⟨⟨(i 0).val, hN⟩, flush0_16 _, ?_⟩
  rw [mem_graph_block]
  intro a
  match a with
  | ⟨0, _⟩ => show win0_16.index ⟨(i 0).val, hN⟩ (0 : Fin 3) * 1 ≤ (i 0).val ∧ (i 0).val < win0_16.index ⟨(i 0).val, hN⟩ (0 : Fin 3) * 1 + 1; omega
  | ⟨1, _⟩ => show win0_16.index ⟨(i 0).val, hN⟩ (1 : Fin 3) * 1024 ≤ (i 1).val ∧ (i 1).val < win0_16.index ⟨(i 0).val, hN⟩ (1 : Fin 3) * 1024 + 1024; omega
  | ⟨2, _⟩ => show win0_16.index ⟨(i 0).val, hN⟩ (2 : Fin 3) * 256 ≤ (i 2).val ∧ (i 2).val < win0_16.index ⟨(i 0).val, hN⟩ (2 : Fin 3) * 256 + 256; omega

/-- THE OUTPUT ARRAY after the run is the result array. -/
theorem output_is_result (c : Dev nD) : (dats m 0 c).arrAt 16 cfg0.N = resultArray m c :=
  (dats m 0 c).arrAt_eq_of_cover 16 (resultArray m c) (fun t _ => point_writes_back_graph m c t) (graphs_tile_output)

end Cert.ResBlock.Arr

end
-- ==== Proof.lean ====
/-
  A residual block of two graph convolutions, as a kernel over one graph per grid point, against its whole-batch
  einsum reference: both leave the same array.

  With h = bn₁(x), both programs compute
      leaky(A · (bn₂(leaky(A · (h · W₁) + b₁)) · W₂) + b₂)  +  (A · (h · W_skip) + b_skip)
  entry by entry (Cert.ResBlock.result, Proof/ResBlockSpec.lean). The kernel forms it graph by graph from [1024, 256]
  tiles, its matrix products accumulating from zero and its operands narrowed to a shorter float format first; on
  the extended reals a narrowing is the identity and a product into zero is the plain sum over the contracted axis,
  which is also what the reference's two einsums are. The two literals (the variance floor and the rectifier's
  slope) are the same words on both sides and are never evaluated; no algebraic law beyond that is used, so the
  finiteness of the inputs is never opened.

    Proof/ResBlockSpec.lean   the block as one function of the sixteen arrays
    Proof/RefStages.lean      the reference's stages are the block's layers
    Proof/KernelBody.lean     the kernel body's stored value, for one graph, is the block at that graph
    Proof/KernelArray.lean    the sixteen written-back blocks tile the output array
-/
import proofs.«117045_j11184094839562_1_alg».proof.Defs
import proofs.«117045_j11184094839562_1_alg».proof.Proof.Gen.Kernel
import proofs.«117045_j11184094839562_1_alg».proof.Proof.Gen.Kernel.Skeleton
import proofs.«117045_j11184094839562_1_alg».proof.Proof.Gen.Kernel.Launch
import proofs.«117045_j11184094839562_1_alg».proof.Proof.Gen.Kernel.Points
import proofs.«117045_j11184094839562_1_alg».proof.Proof.Gen.Kernel.Frame
import proofs.«117045_j11184094839562_1_alg».proof.Proof.Gen.KernelIdeal
import proofs.«117045_j11184094839562_1_alg».proof.Proof.Gen.KernelIdeal.Skeleton
import proofs.«117045_j11184094839562_1_alg».proof.Proof.Gen.KernelIdeal.Launch
import proofs.«117045_j11184094839562_1_alg».proof.Proof.Gen.KernelIdeal.Points
import proofs.«117045_j11184094839562_1_alg».proof.Proof.Gen.KernelIdeal.Frame
import proofs.«117045_j11184094839562_1_alg».proof.Proof.Gen.ReferenceIdeal
import proofs.«117045_j11184094839562_1_alg».proof.Proof.Gen.KernelIdeal.Value
import proofs.«117045_j11184094839562_1_alg».proof.Proof.Gen.ReferenceIdeal.Run
import proofs.«117045_j11184094839562_1_alg».proof.Proof.Gen.ReferenceIdeal.Read
import proofs.«117045_j11184094839562_1_alg».proof.Proof.Gen.Pre_finite_inputs
import proofs.«117045_j11184094839562_1_alg».proof.Proof.RefStages
import proofs.«117045_j11184094839562_1_alg».proof.Proof.KernelArray
import Idealize.ShloMosaic.Adequacy
import Idealize.ShloMosaic.Init

noncomputable section

namespace Cert.Proof

open Idealize.ShloMosaic Idealize.SL.Sem Cert.Kernel

/-- The word-level kernel runs to the end and leaves its arguments alone. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealisation rewrote nothing in this kernel. -/
theorem preserves : Cert.preserves_Kernel_KernelIdeal := trivial

/-- From arguments that agree, the kernel's output array and the reference's result are both the block function
    of the arguments. -/
theorem algebraic : Cert.algebraic_KernelIdeal_ReferenceIdeal := by
  intro m ρ m' ρ' _ hagree
  refine ⟨fun c => Cert.ResBlock.Arr.resultArray m c, ?_, ?_⟩
  · exact (θ_run Cert.KernelIdeal.defs _ _).mono
      (fun r h c => ⟨(h c).1.trans (Cert.ResBlock.Arr.output_is_result m c), (h c).2⟩)
      (Cert.KernelIdeal.Value.run_blocks m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7, a8, a9, a10, a11, a12, a13, a14, a15⟩ := hagree c
    rw [Cert.ReferenceIdeal.Read.val_main_v55_eq, Cert.ResBlock.Ref.ref_result,
      a0, a1, a2, a3, a4, a5, a6, a7, a8, a9, a10, a11, a12, a13, a14, a15]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
